-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x128 : Shape := ⟨2, ![128, 128]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S100000x128 .f32) (main_arg1 : FVec F S50000x128 .f32) (main_arg2 : FVec F S128x128 .f32) (main_arg3 : FVec F S128x128 .f32) (main_arg4 : FVec F S128x128 .f32) (main_arg5 : FVec F S128x128 .f32) (main_arg6 : IVec S1000000 32) (main_arg7 : IVec S1000000 32) (main_arg8 : IVec S1000000 32) (main_arg9 : IVec S1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S100000x128 : Shape := ⟨2, ![100000, 128]⟩
abbrev S50000x128 : Shape := ⟨2, ![50000, 128]⟩
abbrev S128x128 : Shape := ⟨2, ![128, 128]⟩
abbrev S1000000 : Shape := ⟨1, ![1000000]⟩
abbrev S128x256 : Shape := ⟨2, ![128, 256]⟩
abbrev S100000x256 : Shape := ⟨2, ![100000, 256]⟩
abbrev S5000x128 : Shape := ⟨2, ![5000, 128]⟩
abbrev S5000x256 : Shape := ⟨2, ![5000, 256]⟩
abbrev S50000x256 : Shape := ⟨2, ![50000, 256]⟩
abbrev S_ : Shape := ⟨0, ![]⟩
abbrev S1000000x1 : Shape := ⟨2, ![1000000, 1]⟩
abbrev S1000000x128 : Shape := ⟨2, ![1000000, 128]⟩
abbrev S50000x1 : Shape := ⟨2, ![50000, 1]⟩
abbrev S100000x1 : Shape := ⟨2, ![100000, 1]⟩
abbrev S5000x1 : Shape := ⟨2, ![5000, 1]⟩
abbrev S150000x128 : Shape := ⟨2, ![150000, 128]⟩

abbrev nBuf : Space → Nat
  | .hbm => 57
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S1000000, .i32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S128x256, .f32⟩
  | .hbm, ⟨11, _⟩ => ⟨S128x256, .f32⟩
  | .hbm, ⟨12, _⟩ => ⟨S100000x256, .f32⟩
  | .hbm, ⟨13, _⟩ => ⟨S50000x256, .f32⟩
  | .hbm, ⟨14, _⟩ => ⟨S100000x128, .f32⟩
  | .hbm, ⟨15, _⟩ => ⟨S100000x128, .f32⟩
  | .hbm, ⟨16, _⟩ => ⟨S50000x128, .f32⟩
  | .hbm, ⟨17, _⟩ => ⟨S50000x128, .f32⟩
  | .hbm, ⟨18, _⟩ => ⟨S_, .f32⟩
  | .hbm, ⟨19, _⟩ => ⟨S1000000x1, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x128, .f32⟩
  | .hbm, ⟨29, _⟩ => ⟨S_, .f32⟩
  | .hbm, ⟨30, _⟩ => ⟨S50000x128, .f32⟩
  | .hbm, ⟨31, _⟩ => ⟨S1000000x1, .i32⟩
  | .hbm, ⟨32, _⟩ => ⟨S50000x128, .f32⟩
  | .hbm, ⟨33, _⟩ => ⟨S_, .f32⟩
  | .hbm, ⟨34, _⟩ => ⟨S50000x1, .f32⟩
  | .hbm, ⟨35, _⟩ => ⟨S1000000x1, .i32⟩
  | .hbm, ⟨36, _⟩ => ⟨S50000x1, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x128, .f32⟩
  | .hbm, ⟨46, _⟩ => ⟨S_, .f32⟩
  | .hbm, ⟨47, _⟩ => ⟨S100000x128, .f32⟩
  | .hbm, ⟨48, _⟩ => ⟨S1000000x1, .i32⟩
  | .hbm, ⟨49, _⟩ => ⟨S100000x128, .f32⟩
  | .hbm, ⟨50, _⟩ => ⟨S_, .f32⟩
  | .hbm, ⟨51, _⟩ => ⟨S100000x1, .f32⟩
  | .hbm, ⟨52, _⟩ => ⟨S1000000x1, .i32⟩
  | .hbm, ⟨53, _⟩ => ⟨S100000x1, .f32⟩
  | .hbm, ⟨54, _⟩ => ⟨S100000x128, .f32⟩
  | .hbm, ⟨55, _⟩ => ⟨S50000x128, .f32⟩
  | .hbm, ⟨56, _⟩ => ⟨S150000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x128, .f32⟩
  | .local _ .vmem, ⟨6, _⟩ => ⟨S5000x128, .f32⟩
  | .local _ .vmem, ⟨7, _⟩ => ⟨S128x256, .f32⟩
  | .local _ .vmem, ⟨8, _⟩ => ⟨S5000x256, .f32⟩
  | .local _ .vmem, ⟨9, _⟩ => ⟨S5000x256, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  concatenates_S128x128_S128x128_S128x256_d1 : Shape.Concatenates [S128x128, S128x128] S128x256 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  slices_S100000x256_S100000x128_0_0 : S100000x256.Slices ![0, 0] S100000x128
  slices_S100000x256_S100000x128_0_128 : S100000x256.Slices ![0, 128] S100000x128
  slices_S50000x256_S50000x128_0_0 : S50000x256.Slices ![0, 0] S50000x128
  slices_S50000x256_S50000x128_0_128 : S50000x256.Slices ![0, 128] S50000x128
  bcast_S_S1000000x1 : S_.BroadcastsInDim S1000000x1 (![] : Fin 0 → Fin S1000000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x128 : S_.BroadcastsInDim S50000x128 (![] : Fin 0 → Fin S50000x128.rank)
  bcast_S_S50000x1 : S_.BroadcastsInDim S50000x1 (![] : Fin 0 → Fin S50000x1.rank)
  bcast_S_S100000x128 : S_.BroadcastsInDim S100000x128 (![] : Fin 0 → Fin S100000x128.rank)
  bcast_S_S100000x1 : S_.BroadcastsInDim S100000x1 (![] : Fin 0 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  concatenates_S100000x128_S50000x128_S150000x128_d0 : Shape.Concatenates [S100000x128, S50000x128] S150000x128 0
  dot_S5000x128_S128x256_S5000x256_1_0_0_1_n_n_wf : DotDims.WF S5000x128 S128x256 S5000x256 [1] [0] [0] [1] [] []
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000x1_S1000000x1_S1000000x1_1_0_0_1_wf : ScatterDims.WF S50000x1 S1000000x1 S1000000x1 [1] [0] [0] 1
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000x1_S1000000x1_S1000000x1_1_0_0_1_wf : ScatterDims.WF S100000x1 S1000000x1 S1000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v5) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v6) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x128 : Shape := ⟨2, ![128, 128]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S50000x1 : Shape := ⟨2, ![50000, 1]⟩
abbrev S100000x1 : Shape := ⟨2, ![100000, 1]⟩
abbrev S150000x128 : Shape := ⟨2, ![150000, 128]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S1000000, .i32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S100000x128, .f32⟩
  | .hbm, ⟨11, _⟩ => ⟨S50000x128, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x128, .f32⟩
  | .hbm, ⟨21, _⟩ => ⟨S_, .f32⟩
  | .hbm, ⟨22, _⟩ => ⟨S50000x128, .f32⟩
  | .hbm, ⟨23, _⟩ => ⟨S1000000x1, .i32⟩
  | .hbm, ⟨24, _⟩ => ⟨S50000x128, .f32⟩
  | .hbm, ⟨25, _⟩ => ⟨S_, .f32⟩
  | .hbm, ⟨26, _⟩ => ⟨S1000000x1, .f32⟩
  | .hbm, ⟨27, _⟩ => ⟨S_, .f32⟩
  | .hbm, ⟨28, _⟩ => ⟨S50000x1, .f32⟩
  | .hbm, ⟨29, _⟩ => ⟨S1000000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S100000x128, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x128, .f32⟩
  | .hbm, ⟨48, _⟩ => ⟨S_, .f32⟩
  | .hbm, ⟨49, _⟩ => ⟨S100000x128, .f32⟩
  | .hbm, ⟨50, _⟩ => ⟨S1000000x1, .i32⟩
  | .hbm, ⟨51, _⟩ => ⟨S100000x128, .f32⟩
  | .hbm, ⟨52, _⟩ => ⟨S_, .f32⟩
  | .hbm, ⟨53, _⟩ => ⟨S1000000x1, .f32⟩
  | .hbm, ⟨54, _⟩ => ⟨S_, .f32⟩
  | .hbm, ⟨55, _⟩ => ⟨S100000x1, .f32⟩
  | .hbm, ⟨56, _⟩ => ⟨S1000000x1, .i32⟩
  | .hbm, ⟨57, _⟩ => ⟨S100000x1, .f32⟩
  | .hbm, ⟨58, _⟩ => ⟨S_, .f32⟩
  | .hbm, ⟨59, _⟩ => ⟨S100000x1, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S150000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call0_cst : Ref sig .tc := ⟨.hbm, 64, rfl⟩
abbrev main_call0_v0 : Ref sig .tc := ⟨.hbm, 65, rfl⟩
abbrev main_v42 : Ref sig .tc := ⟨.hbm, 66, rfl⟩
abbrev main_call1_cst : Ref sig .tc := ⟨.hbm, 67, rfl⟩
abbrev main_call1_v0 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x128 : S_.BroadcastsInDim S50000x128 (![] : Fin 0 → Fin S50000x128.rank)
  bcast_S_S1000000x1 : S_.BroadcastsInDim S1000000x1 (![] : Fin 0 → Fin S1000000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S50000x128_S150000x128_d0 : Shape.Concatenates [S100000x128, S50000x128] S150000x128 0
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000x1_S1000000x1_S1000000x1_1_0_0_1_wf : ScatterDims.WF S50000x1 S1000000x1 S1000000x1 [1] [0] [0] 1
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000x1_S1000000x1_S1000000x1_1_0_0_1_wf : ScatterDims.WF S100000x1 S1000000x1 S1000000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf

class Facts : Prop extends Facts₀ where

variable [Facts]
-- ==== Proof.Spec.lean ====
/-
  The two whole-array functions the kernel program computes with its four launches, index by index, over the
  extended reals.

  * The fused projection: row `r` of a node-feature array against column `q` of a 128 × 256 weight array, the
    sum over the 128 features of the products. The weight array is two 128 × 128 matrices side by side, so its
    left 128 columns give one projection and its right 128 columns the other.
  * The closing step: to a row of projected targets add the row's message sum divided by the row's message
    count, the count raised to one where no message arrived, and keep the positive part.

  Each is stated for the user nodes (100000 rows) and for the point-of-interest nodes (50000 rows).
-/
import proofs.«127996_j59854664237663_1_alg».proof.KernelIdeal
import Idealize.ShloMosaic.Lib.ValueIdx
import Idealize.ShloMosaic.PureOps.Ideal

noncomputable section

namespace Cert.KernelIdeal.Spec

open Cert.KernelIdeal Idealize.ShloMosaic

/-! ## Indices -/

/-- In a feature array of `n` rows: row `r`, feature `k`. -/
abbrev featAt {n : Nat} (r : Fin n) (k : Fin 128) : (⟨2, ![n, 128]⟩ : Shape).Idx := fun a => match a with
  | ⟨0, _⟩ => ⟨r.val, r.isLt⟩
  | ⟨1, _⟩ => ⟨k.val, k.isLt⟩

/-- In the 128 × 256 weight array: feature `k`, column `q`. -/
abbrev weightAt (k : Fin 128) (q : Fin 256) : S128x256.Idx := fun a => match a with
  | ⟨0, _⟩ => ⟨k.val, k.isLt⟩
  | ⟨1, _⟩ => ⟨q.val, q.isLt⟩

/-- In a one-column count array of `n` rows: row `r`. -/
abbrev countAt {n : Nat} (r : Fin n) : (⟨2, ![n, 1]⟩ : Shape).Idx := fun a => match a with
  | ⟨0, _⟩ => ⟨r.val, r.isLt⟩
  | ⟨1, _⟩ => ⟨0, Nat.one_pos⟩

/-! ## The fused projection -/

/-- Every user row against every column of the doubled weight array. -/
def projUser (x : S100000x128.Idx → EReal) (w : S128x256.Idx → EReal) : S100000x256.Idx → EReal :=
  fun i => ∑ k : Fin 128, x (featAt (n := 100000) ⟨(i 0).val, (i 0).isLt⟩ k) * w (weightAt k ⟨(i 1).val, (i 1).isLt⟩)

/-- Every point-of-interest row against every column of the doubled weight array. -/
def projPoi (x : S50000x128.Idx → EReal) (w : S128x256.Idx → EReal) : S50000x256.Idx → EReal :=
  fun i => ∑ k : Fin 128, x (featAt (n := 50000) ⟨(i 0).val, (i 0).isLt⟩ k) * w (weightAt k ⟨(i 1).val, (i 1).isLt⟩)

/-! ## The closing step -/

/-- One element of the closing step: target plus sum over the count raised to one, then the positive part. -/
def closeElt (t s n : EReal) : EReal :=
  max (t + Ideal.div s (max n (Ideal.ofBits .f32 0x3F800000#32))) (Ideal.ofBits .f32 0x00000000#32)

/-- The closing step over the user rows. -/
def closeUser (t s : S100000x128.Idx → EReal) (n : S100000x1.Idx → EReal) : S100000x128.Idx → EReal :=
  fun i => closeElt (t i) (s i) (n (countAt (n := 100000) ⟨(i 0).val, (i 0).isLt⟩))

/-- The closing step over the point-of-interest rows. -/
def closePoi (t s : S50000x128.Idx → EReal) (n : S50000x1.Idx → EReal) : S50000x128.Idx → EReal :=
  fun i => closeElt (t i) (s i) (n (countAt (n := 50000) ⟨(i 0).val, (i 0).isLt⟩))

end Cert.KernelIdeal.Spec

end
-- ==== Proof.Messages.lean ====
/-
  The message passing both programs share, and the kernel program's whole value.

  Between its two pairs of launches the kernel program gathers, for each of the million edges of an edge type, the
  projected source row the edge starts at (an index below zero counts from the end), adds the gathered rows into the
  row of the node the edge ends at, starting from zero, and counts the edges ending at each node the same way by adding
  ones. These are host operations, spelt here exactly as the program applies them; nothing in this certificate opens
  them. The kernel program's result is then stated as ONE function of its ten arguments: the two fused projections, their
  four column halves, the four sums and counts, the two closing steps, one result over the other.
-/
import proofs.«127996_j59854664237663_1_alg».proof.Proof.Gen.KernelIdeal
import proofs.«127996_j59854664237663_1_alg».proof.Proof.Spec

noncomputable section

namespace Cert.KernelIdeal.Messages

open Cert.KernelIdeal Cert.KernelIdeal.Facts₀ Cert.KernelIdeal.Facts Cert.KernelIdeal.Spec Idealize.ShloMosaic

/-! ## The shared host operations -/

/-- A million node indices as a column, an index below zero moved up by the node count `n`. -/
def wrapCol (n : BitVec 32) (e : (⟨S1000000, .i32⟩ : BufTy).Contents (Elt Ideal)) : (⟨S1000000x1, .i32⟩ : BufTy).Contents (Elt Ideal) :=
  broadcastInDim S1000000x1 ![0] bcast_S1000000_S1000000x1_0
    (select (cmpi .slt e (broadcastInDim S1000000 ![] bcast_S_S1000000 (constantI S_ 32 0#32)))
      (addi e (broadcastInDim S1000000 ![] bcast_S_S1000000 (constantI S_ 32 n))) e)

/-- A million node indices as a column, as they are. -/
def asCol (e : (⟨S1000000, .i32⟩ : BufTy).Contents (Elt Ideal)) : (⟨S1000000x1, .i32⟩ : BufTy).Contents (Elt Ideal) :=
  broadcastInDim S1000000x1 ![0] bcast_S1000000_S1000000x1_0 e

/-- A one for every edge, as a column. -/
def onesCol : (⟨S1000000x1, .f32⟩ : BufTy).Contents (Elt Ideal) :=
  broadcastInDim S1000000x1 ![] bcast_S_S1000000x1 (constant (F := Ideal) S_ .f32 0x3F800000#32)

/-- Into every point-of-interest row, the sum of the user source rows of the edges that end there. -/
def sumPoi (src : (⟨S100000x128, .f32⟩ : BufTy).Contents (Elt Ideal)) (eSrc eTgt : (⟨S1000000, .i32⟩ : BufTy).Contents (Elt Ideal)) :
    (⟨S50000x128, .f32⟩ : BufTy).Contents (Elt Ideal) :=
  Host.scatterAdd (F := Ideal) scatter_S50000x128_S1000000x1_S1000000x128_1_0_0_1
    (broadcastInDim S50000x128 ![] bcast_S_S50000x128 (constant (F := Ideal) S_ .f32 0x00000000#32)) (asCol eTgt)
    (Host.gather gather_S100000x128_S1000000x1_S1000000x128_1_0_n_n_0_1_1128 src (wrapCol 100000#32 eSrc))

/-- For every point-of-interest row, the number of edges that end there. -/
def cntPoi (eTgt : (⟨S1000000, .i32⟩ : BufTy).Contents (Elt Ideal)) : (⟨S50000x1, .f32⟩ : BufTy).Contents (Elt Ideal) :=
  Host.scatterAdd (F := Ideal) scatter_S50000x1_S1000000x1_S1000000x1_1_0_0_1
    (broadcastInDim S50000x1 ![] bcast_S_S50000x1 (constant (F := Ideal) S_ .f32 0x00000000#32)) (asCol eTgt) onesCol

/-- Into every user row, the sum of the point-of-interest source rows of the edges that end there. -/
def sumUser (src : (⟨S50000x128, .f32⟩ : BufTy).Contents (Elt Ideal)) (eSrc eTgt : (⟨S1000000, .i32⟩ : BufTy).Contents (Elt Ideal)) :
    (⟨S100000x128, .f32⟩ : BufTy).Contents (Elt Ideal) :=
  Host.scatterAdd (F := Ideal) scatter_S100000x128_S1000000x1_S1000000x128_1_0_0_1
    (broadcastInDim S100000x128 ![] bcast_S_S100000x128 (constant (F := Ideal) S_ .f32 0x00000000#32)) (asCol eTgt)
    (Host.gather gather_S50000x128_S1000000x1_S1000000x128_1_0_n_n_0_1_1128 src (wrapCol 50000#32 eSrc))

/-- For every user row, the number of edges that end there. -/
def cntUser (eTgt : (⟨S1000000, .i32⟩ : BufTy).Contents (Elt Ideal)) : (⟨S100000x1, .f32⟩ : BufTy).Contents (Elt Ideal) :=
  Host.scatterAdd (F := Ideal) scatter_S100000x1_S1000000x1_S1000000x1_1_0_0_1
    (broadcastInDim S100000x1 ![] bcast_S_S100000x1 (constant (F := Ideal) S_ .f32 0x00000000#32)) (asCol eTgt) onesCol

/-! ## The two weight arrays side by side, and the column halves of a fused projection -/

def sideBySide (a b : (⟨S128x128, .f32⟩ : BufTy).Contents (Elt Ideal)) : (⟨S128x256, .f32⟩ : BufTy).Contents (Elt Ideal) :=
  concatenate S128x256 1 [⟨S128x128, a⟩, ⟨S128x128, b⟩] concatenates_S128x128_S128x128_S128x256_d1

def leftUser (y : (⟨S100000x256, .f32⟩ : BufTy).Contents (Elt Ideal)) : (⟨S100000x128, .f32⟩ : BufTy).Contents (Elt Ideal) :=
  extractStridedSlice S100000x128 ![0, 0] y slices_S100000x256_S100000x128_0_0
def rightUser (y : (⟨S100000x256, .f32⟩ : BufTy).Contents (Elt Ideal)) : (⟨S100000x128, .f32⟩ : BufTy).Contents (Elt Ideal) :=
  extractStridedSlice S100000x128 ![0, 128] y slices_S100000x256_S100000x128_0_128
def leftPoi (y : (⟨S50000x256, .f32⟩ : BufTy).Contents (Elt Ideal)) : (⟨S50000x128, .f32⟩ : BufTy).Contents (Elt Ideal) :=
  extractStridedSlice S50000x128 ![0, 0] y slices_S50000x256_S50000x128_0_0
def rightPoi (y : (⟨S50000x256, .f32⟩ : BufTy).Contents (Elt Ideal)) : (⟨S50000x128, .f32⟩ : BufTy).Contents (Elt Ideal) :=
  extractStridedSlice S50000x128 ![0, 128] y slices_S50000x256_S50000x128_0_128

/-- The user rows over the point-of-interest rows. -/
def stacked (u : (⟨S100000x128, .f32⟩ : BufTy).Contents (Elt Ideal)) (p : (⟨S50000x128, .f32⟩ : BufTy).Contents (Elt Ideal)) :
    (⟨S150000x128, .f32⟩ : BufTy).Contents (Elt Ideal) :=
  concatenate S150000x128 0 [⟨S100000x128, u⟩, ⟨S50000x128, p⟩] concatenates_S100000x128_S50000x128_S150000x128_d0

/-! ## The kernel program's value -/

/-- The kernel program's result as one function of its ten arguments: features `xu`, `xp`; weights `a2` … `a5`; the
    edges' end points `e6` … `e9`. -/
def kernelValue (xu : (⟨S100000x128, .f32⟩ : BufTy).Contents (Elt Ideal)) (xp : (⟨S50000x128, .f32⟩ : BufTy).Contents (Elt Ideal))
    (a2 a3 a4 a5 : (⟨S128x128, .f32⟩ : BufTy).Contents (Elt Ideal)) (e6 e7 e8 e9 : (⟨S1000000, .i32⟩ : BufTy).Contents (Elt Ideal)) :
    (⟨S150000x128, .f32⟩ : BufTy).Contents (Elt Ideal) :=
  stacked
    (closeUser (rightUser (projUser xu (sideBySide a2 a5))) (sumUser (rightPoi (projPoi xp (sideBySide a3 a4))) e8 e9) (cntUser e9))
    (closePoi (leftPoi (projPoi xp (sideBySide a3 a4))) (sumPoi (leftUser (projUser xu (sideBySide a2 a5))) e6 e7) (cntPoi e7))

end Cert.KernelIdeal.Messages

end
-- ==== Proof.ProjBody.lean ====
/-
  One block of the fused projection, read at an index.

  Each launch point of a projection kernel multiplies a block of 5000 feature rows by the whole 128 × 256 weight
  array. Over the extended reals the narrowing of both operands to a shorter float format is the identity and the
  product is accumulated into zero, so the element in row `r`, column `q` of the block's result is the sum over
  the 128 features `k` of (row `r`, feature `k`) times (feature `k`, column `q`). The product's operand
  indices are identified with those coordinates axis by axis, the contracted axis through its one coordinate.
  Both projection kernels have this one body.
-/
import proofs.«127996_j59854664237663_1_alg».proof.Proof.Gen.KernelIdeal.Skeleton
import proofs.«127996_j59854664237663_1_alg».proof.Proof.Spec
import Idealize.ShloMosaic.Lib.ValueIdx
import Idealize.ShloMosaic.Lib.Pipeline.Value
import Idealize.ShloMosaic.PureOps.Ideal.Laws

noncomputable section

namespace Cert.KernelIdeal.ProjBody

open Cert.KernelIdeal Cert.KernelIdeal.Gen Cert.KernelIdeal.Spec Idealize.ShloMosaic

/-! ## The product's operand indices, axis by axis -/

theorem lhs_row (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_feat (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_feat (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_col (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-! ## The block's result at an index -/

/-- The product of a block of feature rows `x` with the weight array `w`, accumulated into zero, at row and column `i`:
    the sum over the features of the row's entry times the column's. -/
theorem matmul_block_apply (x : FVec Ideal S5000x128 .bf16) (w : FVec Ideal S128x256 .bf16) (i : S5000x256.Idx) :
    matmul dot_S5000x128_S128x256_S5000x256_1_0_0_1_n_n none x w (constant (F := Ideal) S5000x256 .f32 0x00000000#32) i
      = ∑ k : Fin 128, x (featAt (n := 5000) ⟨(i 0).val, (i 0).isLt⟩ k) * w (weightAt k ⟨(i 1).val, (i 1).isLt⟩) := by
  show FloatOps.matmul dot_S5000x128_S128x256_S5000x256_1_0_0_1_n_n none x w (constant (F := Ideal) S5000x256 .f32 0x00000000#32) i = _
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx i ((ValueIdx.contrEquiv1 dot_S5000x128_S128x256_S5000x256_1_0_0_1_n_n 128 rfl rfl).symm k) = featAt (n := 5000) ⟨(i 0).val, (i 0).isLt⟩ k := funext fun a => Fin.ext (by
    match a with
    | ⟨0, _⟩ => exact lhs_row _ _
    | ⟨1, _⟩ => exact (lhs_feat _ _).trans hk)
  have er : dot_S5000x128_S128x256_S5000x256_1_0_0_1_n_n.rhsIdx i ((ValueIdx.contrEquiv1 dot_S5000x128_S128x256_S5000x256_1_0_0_1_n_n 128 rfl rfl).symm k) = weightAt k ⟨(i 1).val, (i 1).isLt⟩ := funext fun a => Fin.ext (by
    match a with
    | ⟨0, _⟩ => exact (rhs_feat _ _).trans hk
    | ⟨1, _⟩ => exact rhs_col _ _)
  rw [el, er]

/-- The user projection kernel's stored value at an index. -/
theorem pay_user_apply (x : Vec Ideal S5000x128 .f32) (w : Vec Ideal S128x256 .f32) (i : S5000x256.Idx) :
    k0_pay1 (F := Ideal) x w i
      = ∑ k : Fin 128, x (featAt (n := 5000) ⟨(i 0).val, (i 0).isLt⟩ k) * w (weightAt k ⟨(i 1).val, (i 1).isLt⟩) := by
  unfold k0_pay1
  dsimp only
  rw [shapeCast_self]
  exact matmul_block_apply _ _ i

/-- The point-of-interest projection kernel's stored value at an index. -/
theorem pay_poi_apply (x : Vec Ideal S5000x128 .f32) (w : Vec Ideal S128x256 .f32) (i : S5000x256.Idx) :
    k1_pay1 (F := Ideal) x w i
      = ∑ k : Fin 128, x (featAt (n := 5000) ⟨(i 0).val, (i 0).isLt⟩ k) * w (weightAt k ⟨(i 1).val, (i 1).isLt⟩) := by
  unfold k1_pay1
  dsimp only
  rw [shapeCast_self]
  exact matmul_block_apply _ _ i

end Cert.KernelIdeal.ProjBody

end
-- ==== Proof.ProjUser.lean ====
/-
  The user projection's array after its launch.

  The launch has 20 points. Point `t` reads rows 5000·t … 5000·t + 4999 of the user features and the whole weight
  array, and writes back the same rows of the 100000 × 256 result. What it writes is the block's product, which at
  row `r`, column `q` of the block is the sum over the features of (row 5000·t + r, feature `k`) times (feature
  `k`, column `q`): the fused projection of the WHOLE arrays, read at the block's place. The 20 row blocks tile the
  result, so after the launch the result array is the fused projection of the arrays the launch found.
-/
import proofs.«127996_j59854664237663_1_alg».proof.Proof.Gen.KernelIdeal.Frame
import proofs.«127996_j59854664237663_1_alg».proof.Proof.ProjBody
import Idealize.ShloMosaic.Lib.Pipeline.Value

set_option maxRecDepth 16384

noncomputable section

namespace Cert.KernelIdeal.ProjUser

open Cert.KernelIdeal Cert.KernelIdeal.Gen Cert.KernelIdeal.Spec
open Idealize.ShloMosaic Idealize.ShloMosaic.TcCoe Idealize.SL.Sem
open Idealize.ShloMosaic.Pipeline (Dat Cfg Window)

-- the buffer contents the launch finds
variable (V : (c : Dev nD) → (b : Ref sig .tc) → Buf (Elt Ideal) ((c : Thread nD τ).loc b))

theorem zero_off : (![0, 0] : Fin 2 → Nat) = fun _ => 0 := funext fun a => by fin_cases a <;> rfl

/-- The block index maps over the 20 points: the feature block moves with the result's row block, the weight array
    and every column index stay at 0, and the result's row block stays below 20. -/
theorem idx_facts : ∀ t : Fin cfg0.N,
      win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block of the result is some point's. -/
theorem idx_onto : ∀ q : Fin 20, ∃ t : Fin cfg0.N, win0_2.index t = ![q.val, 0] :=
  (by decide +kernel : ∀ q : Fin 20, ∃ t : Fin grid0.N, win0_2.index t = ![q.val, 0])

/-- What point `t` writes back is block `t` of the fused projection of the arrays the launch found. -/
theorem flushed_eq (c : Dev nD) (t : Fin cfg0.N) :
    (dat0 (F := Ideal) V c).flushed 2 t
      = ((cfg0.win 2).blk t).view.read (Elt Ideal) (projUser (V c main_arg0) (V c main_v0)) := by
  show (cfg0.win 2).cut (grid0.coords t) ((dat0 (F := Ideal) V c).after 2 t) = _
  rw [after0_2]
  unfold out0_2
  rw [View.canon_unit_zero zero_off]
  simp only [View.ld_unit_zero (S := S5000x128) zero_off, View.ld_unit_zero (S := S128x256) zero_off]
  obtain ⟨e0, e1, e2, e3, e4, e5⟩ := idx_facts t
  funext j
  show k0_pay1 (F := Ideal) (iblk0 V c 0 t) (iblk0 V c 1 t) j
      = projUser (V c main_arg0) (V c main_v0) (((cfg0.win 2).blk t).view.emb j)
  refine (ProjBody.pay_user_apply (iblk0 V c 0 t) (iblk0 V c 1 t) j).trans ?_
  unfold projUser
  refine Finset.sum_congr rfl fun k _ => ?_
  have hj0 : (j 0).val < 5000 := (j 0).isLt
  have hj1 : (j 1).val < 256 := (j 1).isLt
  have hx : iblk0 V c 0 t (featAt (n := 5000) ⟨(j 0).val, (j 0).isLt⟩ k)
      = V c main_arg0 (featAt (n := 100000) ⟨((((cfg0.win 2).blk t).view.emb j) 0).val, ((((cfg0.win 2).blk t).view.emb j) 0).isLt⟩ k) := by
    show V c main_arg0 (((cfg0.win 0).blk t).view.emb (featAt (n := 5000) ⟨(j 0).val, (j 0).isLt⟩ k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (weightAt k ⟨(j 1).val, (j 1).isLt⟩)
      = V c main_v0 (weightAt k ⟨((((cfg0.win 2).blk t).view.emb j) 1).val, ((((cfg0.win 2).blk t).view.emb j) 1).isLt⟩) := by
    show V c main_v0 (((cfg0.win 1).blk t).view.emb (weightAt k ⟨(j 1).val, (j 1).isLt⟩)) = _
    refine congrArg (V c main_v0) (funext fun a => Fin.ext ?_)
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  rw [hx, hw]

/-- An index of the result is in point `t`'s block iff each coordinate is in the block's range on its axis. -/
theorem mem_blk (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v2).slice (win0_2.rect t)).set ↔ _
  rw [View.set_slice_whole, Rect.mem_set_unit]
  exact Iff.rfl

/-- The 20 row blocks tile the result: row `r` is in the block of point `r / 5000`. -/
theorem cover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After the launch the result array is the fused projection of the feature and weight arrays the launch found. -/
theorem final (c : Dev nD) :
    (dat0 (F := Ideal) V c).arrAt 2 cfg0.N = projUser (V c main_arg0) (V c main_v0) :=
  (dat0 (F := Ideal) V c).arrAt_eq_of_cover 2 _ (fun t _ => flushed_eq V c t) cover

end Cert.KernelIdeal.ProjUser

end
-- ==== Proof.ProjPoi.lean ====
/-
  The point-of-interest projection's array after its launch.

  The launch has 10 points. Point `t` reads rows 5000·t … 5000·t + 4999 of the point-of-interest features and the whole weight
  array, and writes back the same rows of the 50000 × 256 result. What it writes is the block's product, which at
  row `r`, column `q` of the block is the sum over the features of (row 5000·t + r, feature `k`) times (feature
  `k`, column `q`): the fused projection of the WHOLE arrays, read at the block's place. The 10 row blocks tile the
  result, so after the launch the result array is the fused projection of the arrays the launch found.
-/
import proofs.«127996_j59854664237663_1_alg».proof.Proof.Gen.KernelIdeal.Frame
import proofs.«127996_j59854664237663_1_alg».proof.Proof.ProjBody
import Idealize.ShloMosaic.Lib.Pipeline.Value

set_option maxRecDepth 16384

noncomputable section

namespace Cert.KernelIdeal.ProjPoi

open Cert.KernelIdeal Cert.KernelIdeal.Gen Cert.KernelIdeal.Spec
open Idealize.ShloMosaic Idealize.ShloMosaic.TcCoe Idealize.SL.Sem
open Idealize.ShloMosaic.Pipeline (Dat Cfg Window)

-- the buffer contents the launch finds
variable (V : (c : Dev nD) → (b : Ref sig .tc) → Buf (Elt Ideal) ((c : Thread nD τ).loc b))

theorem zero_off : (![0, 0] : Fin 2 → Nat) = fun _ => 0 := funext fun a => by fin_cases a <;> rfl

/-- The block index maps over the 10 points: the feature block moves with the result's row block, the weight array
    and every column index stay at 0, and the result's row block stays below 10. -/
theorem idx_facts : ∀ t : Fin cfg1.N,
      win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block of the result is some point's. -/
theorem idx_onto : ∀ q : Fin 10, ∃ t : Fin cfg1.N, win1_2.index t = ![q.val, 0] :=
  (by decide +kernel : ∀ q : Fin 10, ∃ t : Fin grid1.N, win1_2.index t = ![q.val, 0])

/-- What point `t` writes back is block `t` of the fused projection of the arrays the launch found. -/
theorem flushed_eq (c : Dev nD) (t : Fin cfg1.N) :
    (dat1 (F := Ideal) V c).flushed 2 t
      = ((cfg1.win 2).blk t).view.read (Elt Ideal) (projPoi (V c main_arg1) (V c main_v1)) := by
  show (cfg1.win 2).cut (grid1.coords t) ((dat1 (F := Ideal) V c).after 2 t) = _
  rw [after1_2]
  unfold out1_2
  rw [View.canon_unit_zero zero_off]
  simp only [View.ld_unit_zero (S := S5000x128) zero_off, View.ld_unit_zero (S := S128x256) zero_off]
  obtain ⟨e0, e1, e2, e3, e4, e5⟩ := idx_facts t
  funext j
  show k1_pay1 (F := Ideal) (iblk1 V c 0 t) (iblk1 V c 1 t) j
      = projPoi (V c main_arg1) (V c main_v1) (((cfg1.win 2).blk t).view.emb j)
  refine (ProjBody.pay_poi_apply (iblk1 V c 0 t) (iblk1 V c 1 t) j).trans ?_
  unfold projPoi
  refine Finset.sum_congr rfl fun k _ => ?_
  have hj0 : (j 0).val < 5000 := (j 0).isLt
  have hj1 : (j 1).val < 256 := (j 1).isLt
  have hx : iblk1 V c 0 t (featAt (n := 5000) ⟨(j 0).val, (j 0).isLt⟩ k)
      = V c main_arg1 (featAt (n := 50000) ⟨((((cfg1.win 2).blk t).view.emb j) 0).val, ((((cfg1.win 2).blk t).view.emb j) 0).isLt⟩ k) := by
    show V c main_arg1 (((cfg1.win 0).blk t).view.emb (featAt (n := 5000) ⟨(j 0).val, (j 0).isLt⟩ k)) = _
    refine congrArg (V c main_arg1) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have hw : iblk1 V c 1 t (weightAt k ⟨(j 1).val, (j 1).isLt⟩)
      = V c main_v1 (weightAt k ⟨((((cfg1.win 2).blk t).view.emb j) 1).val, ((((cfg1.win 2).blk t).view.emb j) 1).isLt⟩) := by
    show V c main_v1 (((cfg1.win 1).blk t).view.emb (weightAt k ⟨(j 1).val, (j 1).isLt⟩)) = _
    refine congrArg (V c main_v1) (funext fun a => Fin.ext ?_)
    match a with
    | ⟨0, _⟩ => show win1_1.index t (0 : Fin 2) * 128 + 1 * k.val = k.val; omega
    | ⟨1, _⟩ => show win1_1.index t (1 : Fin 2) * 256 + 1 * (j 1).val = win1_2.index t (1 : Fin 2) * 256 + 1 * (j 1).val; omega
  rw [hx, hw]

/-- An index of the result is in point `t`'s block iff each coordinate is in the block's range on its axis. -/
theorem mem_blk (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v3).slice (win1_2.rect t)).set ↔ _
  rw [View.set_slice_whole, Rect.mem_set_unit]
  exact Iff.rfl

/-- The 10 row blocks tile the result: row `r` is in the block of point `r / 5000`. -/
theorem cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- After the launch the result array is the fused projection of the feature and weight arrays the launch found. -/
theorem final (c : Dev nD) :
    (dat1 (F := Ideal) V c).arrAt 2 cfg1.N = projPoi (V c main_arg1) (V c main_v1) :=
  (dat1 (F := Ideal) V c).arrAt_eq_of_cover 2 _ (fun t _ => flushed_eq V c t) cover

end Cert.KernelIdeal.ProjPoi

end
-- ==== Proof.CloseBody.lean ====
/-
  One block of the closing step, read at an index.

  Each launch point of a closing kernel holds a block of 5000 rows of projected targets, the same rows of message
  sums, and the rows' message counts as one column. It raises each count to one where it is smaller, spreads the
  column along the 128 lanes, divides the sums by it, adds the targets and keeps the positive part. The only step
  that is not elementwise is the spreading of the count column: the entry in row `r`, lane `q` of the spread array
  is the entry of row `r` of the column. Both closing kernels have this one body.
-/
import proofs.«127996_j59854664237663_1_alg».proof.Proof.Gen.KernelIdeal.Skeleton
import proofs.«127996_j59854664237663_1_alg».proof.Proof.Spec
import Idealize.ShloMosaic.Lib.ValueIdx
import Idealize.ShloMosaic.Lib.Pipeline.Value

noncomputable section

namespace Cert.KernelIdeal.CloseBody

open Cert.KernelIdeal Cert.KernelIdeal.Gen Cert.KernelIdeal.Spec Idealize.ShloMosaic

/-- The count column spread along the lanes, at row and lane `i`: the column's entry in that row. -/
theorem spread_apply (n : S5000x1.Idx → EReal) (i : S5000x128.Idx) :
    broadcastTo S5000x128 n broadcasts_S5000x1_S5000x128 i = n (countAt (n := 5000) ⟨(i 0).val, (i 0).isLt⟩) :=
  broadcastTo_apply n broadcasts_S5000x1_S5000x128 i (countAt (n := 5000) ⟨(i 0).val, (i 0).isLt⟩) (fun a => match a with
    | ⟨0, _⟩ => by show (i 0).val = if (5000 : Nat) = 1 then 0 else (i 0).val; rw [if_neg (by decide)]
    | ⟨1, _⟩ => by show 0 = if (1 : Nat) = 1 then 0 else (i 1).val; rw [if_pos rfl])

/-- The user closing kernel's stored value at an index: the closing step of the row's target, sum and count. -/
theorem pay_user_apply (n : Vec Ideal S5000x1 .f32) (s t : Vec Ideal S5000x128 .f32) (i : S5000x128.Idx) :
    k2_pay1 (F := Ideal) n s t i = closeElt (t i) (s i) (n (countAt (n := 5000) ⟨(i 0).val, (i 0).isLt⟩)) := by
  unfold k2_pay1
  dsimp only
  rw [shapeCast_self, shapeCast_self, shapeCast_self]
  show max (t i + Ideal.div (s i) (broadcastTo S5000x128 (fun j => max (n j) (Ideal.ofBits .f32 0x3F800000#32)) broadcasts_S5000x1_S5000x128 i)) (Ideal.ofBits .f32 0x00000000#32) = _
  rw [spread_apply]
  rfl

/-- The point-of-interest closing kernel's stored value at an index. -/
theorem pay_poi_apply (n : Vec Ideal S5000x1 .f32) (s t : Vec Ideal S5000x128 .f32) (i : S5000x128.Idx) :
    k3_pay1 (F := Ideal) n s t i = closeElt (t i) (s i) (n (countAt (n := 5000) ⟨(i 0).val, (i 0).isLt⟩)) := by
  unfold k3_pay1
  dsimp only
  rw [shapeCast_self, shapeCast_self, shapeCast_self]
  show max (t i + Ideal.div (s i) (broadcastTo S5000x128 (fun j => max (n j) (Ideal.ofBits .f32 0x3F800000#32)) broadcasts_S5000x1_S5000x128 i)) (Ideal.ofBits .f32 0x00000000#32) = _
  rw [spread_apply]
  rfl

end Cert.KernelIdeal.CloseBody

end
-- ==== Proof.CloseUser.lean ====
/-
  The user closing step's array after its launch.

  The launch has 20 points. Point `t` reads rows 5000·t … 5000·t + 4999 of the projected targets, of the message
  sums and of the one-column message counts, and writes back the same rows of the 100000 × 128 result. What it writes
  at row `r`, lane `q` of the block is the closing step of the target and the sum at (5000·t + r, `q`) and the count of
  row 5000·t + r: the closing step of the WHOLE arrays, read at the block's place. The 20 row blocks tile the result,
  so after the launch the result array is the closing step of the arrays the launch found.
-/
import proofs.«127996_j59854664237663_1_alg».proof.Proof.Gen.KernelIdeal.Frame
import proofs.«127996_j59854664237663_1_alg».proof.Proof.CloseBody
import Idealize.ShloMosaic.Lib.Pipeline.Value

set_option maxRecDepth 16384

noncomputable section

namespace Cert.KernelIdeal.CloseUser

open Cert.KernelIdeal Cert.KernelIdeal.Gen Cert.KernelIdeal.Spec
open Idealize.ShloMosaic Idealize.ShloMosaic.TcCoe Idealize.SL.Sem
open Idealize.ShloMosaic.Pipeline (Dat Cfg Window)

-- the buffer contents the launch finds
variable (V : (c : Dev nD) → (b : Ref sig .tc) → Buf (Elt Ideal) ((c : Thread nD τ).loc b))

theorem zero_off : (![0, 0] : Fin 2 → Nat) = fun _ => 0 := funext fun a => by fin_cases a <;> rfl

/-- The block index maps over the 20 points: the three input blocks move with the result's row block, every column
    index stays at 0, and the result's row block stays below 20. -/
theorem idx_facts : ∀ t : Fin cfg2.N,
      win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = win2_3.index t (0 : Fin 2)
    ∧ win2_2.index t (1 : Fin 2) = 0
    ∧ win2_3.index t (1 : Fin 2) = 0
    ∧ win2_3.index t (0 : Fin 2) ≤ 19 :=
  (by decide +kernel : ∀ t : Fin grid2.N, _)

/-- Every row block of the result is some point's. -/
theorem idx_onto : ∀ q : Fin 20, ∃ t : Fin cfg2.N, win2_3.index t = ![q.val, 0] :=
  (by decide +kernel : ∀ q : Fin 20, ∃ t : Fin grid2.N, win2_3.index t = ![q.val, 0])

/-- What point `t` writes back is block `t` of the closing step of the arrays the launch found. -/
theorem flushed_eq (c : Dev nD) (t : Fin cfg2.N) :
    (dat2 (F := Ideal) V c).flushed 3 t
      = ((cfg2.win 3).blk t).view.read (Elt Ideal) (closeUser (V c main_v5) (V c main_v31) (V c main_v34)) := by
  show (cfg2.win 3).cut (grid2.coords t) ((dat2 (F := Ideal) V c).after 3 t) = _
  rw [after2_3]
  unfold out2_3
  rw [View.canon_unit_zero zero_off]
  simp only [View.ld_unit_zero (S := S5000x128) zero_off, View.ld_unit_zero (S := S5000x1) zero_off]
  obtain ⟨e0, e1, e2, e3, e4, e5, e6, e7⟩ := idx_facts t
  funext j
  show k2_pay1 (F := Ideal) (iblk2 V c 2 t) (iblk2 V c 1 t) (iblk2 V c 0 t) j
      = closeUser (V c main_v5) (V c main_v31) (V c main_v34) (((cfg2.win 3).blk t).view.emb j)
  refine (CloseBody.pay_user_apply (iblk2 V c 2 t) (iblk2 V c 1 t) (iblk2 V c 0 t) j).trans ?_
  unfold closeUser
  have hj0 : (j 0).val < 5000 := (j 0).isLt
  have hj1 : (j 1).val < 128 := (j 1).isLt
  have ht : iblk2 V c 0 t j = V c main_v5 (((cfg2.win 3).blk t).view.emb j) := by
    show V c main_v5 (((cfg2.win 0).blk t).view.emb j) = _
    refine congrArg (V c main_v5) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * (j 1).val = win2_3.index t (1 : Fin 2) * 128 + 1 * (j 1).val; omega
  have hs : iblk2 V c 1 t j = V c main_v31 (((cfg2.win 3).blk t).view.emb j) := by
    show V c main_v31 (((cfg2.win 1).blk t).view.emb j) = _
    refine congrArg (V c main_v31) (funext fun a => Fin.ext ?_)
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 128 + 1 * (j 1).val = win2_3.index t (1 : Fin 2) * 128 + 1 * (j 1).val; omega
  have hn : iblk2 V c 2 t (countAt (n := 5000) ⟨(j 0).val, (j 0).isLt⟩)
      = V c main_v34 (countAt (n := 100000) ⟨((((cfg2.win 3).blk t).view.emb j) 0).val, ((((cfg2.win 3).blk t).view.emb j) 0).isLt⟩) := by
    show V c main_v34 (((cfg2.win 2).blk t).view.emb (countAt (n := 5000) ⟨(j 0).val, (j 0).isLt⟩)) = _
    refine congrArg (V c main_v34) (funext fun a => Fin.ext ?_)
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 1 + 1 * 0 = 0; omega
  rw [ht, hs, hn]

/-- An index of the result is in point `t`'s block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v35).slice (win2_3.rect t)).set ↔ _
  rw [View.set_slice_whole, Rect.mem_set_unit]
  exact Iff.rfl

/-- The 20 row blocks tile the result: row `r` is in the block of point `r / 5000`. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- After the launch the result array is the closing step of the target, sum and count arrays the launch found. -/
theorem final (c : Dev nD) :
    (dat2 (F := Ideal) V c).arrAt 3 cfg2.N = closeUser (V c main_v5) (V c main_v31) (V c main_v34) :=
  (dat2 (F := Ideal) V c).arrAt_eq_of_cover 3 _ (fun t _ => flushed_eq V c t) cover

end Cert.KernelIdeal.CloseUser

end
-- ==== Proof.ClosePoi.lean ====
/-
  The point-of-interest closing step's array after its launch.

  The launch has 10 points. Point `t` reads rows 5000·t … 5000·t + 4999 of the projected targets, of the message
  sums and of the one-column message counts, and writes back the same rows of the 50000 × 128 result. What it writes
  at row `r`, lane `q` of the block is the closing step of the target and the sum at (5000·t + r, `q`) and the count of
  row 5000·t + r: the closing step of the WHOLE arrays, read at the block's place. The 10 row blocks tile the result,
  so after the launch the result array is the closing step of the arrays the launch found.
-/
import proofs.«127996_j59854664237663_1_alg».proof.Proof.Gen.KernelIdeal.Frame
import proofs.«127996_j59854664237663_1_alg».proof.Proof.CloseBody
import Idealize.ShloMosaic.Lib.Pipeline.Value

set_option maxRecDepth 16384

noncomputable section

namespace Cert.KernelIdeal.ClosePoi

open Cert.KernelIdeal Cert.KernelIdeal.Gen Cert.KernelIdeal.Spec
open Idealize.ShloMosaic Idealize.ShloMosaic.TcCoe Idealize.SL.Sem
open Idealize.ShloMosaic.Pipeline (Dat Cfg Window)

-- the buffer contents the launch finds
variable (V : (c : Dev nD) → (b : Ref sig .tc) → Buf (Elt Ideal) ((c : Thread nD τ).loc b))

theorem zero_off : (![0, 0] : Fin 2 → Nat) = fun _ => 0 := funext fun a => by fin_cases a <;> rfl

/-- The block index maps over the 10 points: the three input blocks move with the result's row block, every column
    index stays at 0, and the result's row block stays below 10. -/
theorem idx_facts : ∀ t : Fin cfg3.N,
      win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = win3_3.index t (0 : Fin 2)
    ∧ win3_2.index t (1 : Fin 2) = 0
    ∧ win3_3.index t (1 : Fin 2) = 0
    ∧ win3_3.index t (0 : Fin 2) ≤ 9 :=
  (by decide +kernel : ∀ t : Fin grid3.N, _)

/-- Every row block of the result is some point's. -/
theorem idx_onto : ∀ q : Fin 10, ∃ t : Fin cfg3.N, win3_3.index t = ![q.val, 0] :=
  (by decide +kernel : ∀ q : Fin 10, ∃ t : Fin grid3.N, win3_3.index t = ![q.val, 0])

/-- What point `t` writes back is block `t` of the closing step of the arrays the launch found. -/
theorem flushed_eq (c : Dev nD) (t : Fin cfg3.N) :
    (dat3 (F := Ideal) V c).flushed 3 t
      = ((cfg3.win 3).blk t).view.read (Elt Ideal) (closePoi (V c main_v6) (V c main_v18) (V c main_v21)) := by
  show (cfg3.win 3).cut (grid3.coords t) ((dat3 (F := Ideal) V c).after 3 t) = _
  rw [after3_3]
  unfold out3_3
  rw [View.canon_unit_zero zero_off]
  simp only [View.ld_unit_zero (S := S5000x128) zero_off, View.ld_unit_zero (S := S5000x1) zero_off]
  obtain ⟨e0, e1, e2, e3, e4, e5, e6, e7⟩ := idx_facts t
  funext j
  show k3_pay1 (F := Ideal) (iblk3 V c 2 t) (iblk3 V c 1 t) (iblk3 V c 0 t) j
      = closePoi (V c main_v6) (V c main_v18) (V c main_v21) (((cfg3.win 3).blk t).view.emb j)
  refine (CloseBody.pay_poi_apply (iblk3 V c 2 t) (iblk3 V c 1 t) (iblk3 V c 0 t) j).trans ?_
  unfold closePoi
  have hj0 : (j 0).val < 5000 := (j 0).isLt
  have hj1 : (j 1).val < 128 := (j 1).isLt
  have ht : iblk3 V c 0 t j = V c main_v6 (((cfg3.win 3).blk t).view.emb j) := by
    show V c main_v6 (((cfg3.win 0).blk t).view.emb j) = _
    refine congrArg (V c main_v6) (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  have hs : iblk3 V c 1 t j = V c main_v18 (((cfg3.win 3).blk t).view.emb j) := by
    show V c main_v18 (((cfg3.win 1).blk t).view.emb j) = _
    refine congrArg (V c main_v18) (funext fun a => Fin.ext ?_)
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 128 + 1 * (j 1).val = win3_3.index t (1 : Fin 2) * 128 + 1 * (j 1).val; omega
  have hn : iblk3 V c 2 t (countAt (n := 5000) ⟨(j 0).val, (j 0).isLt⟩)
      = V c main_v21 (countAt (n := 50000) ⟨((((cfg3.win 3).blk t).view.emb j) 0).val, ((((cfg3.win 3).blk t).view.emb j) 0).isLt⟩) := by
    show V c main_v21 (((cfg3.win 2).blk t).view.emb (countAt (n := 5000) ⟨(j 0).val, (j 0).isLt⟩)) = _
    refine congrArg (V c main_v21) (funext fun a => Fin.ext ?_)
    match a with
    | ⟨0, _⟩ => show win3_2.index t (0 : Fin 2) * 5000 + 1 * (j 0).val = win3_3.index t (0 : Fin 2) * 5000 + 1 * (j 0).val; omega
    | ⟨1, _⟩ => show win3_2.index t (1 : Fin 2) * 1 + 1 * 0 = 0; omega
  rw [ht, hs, hn]

/-- An index of the result is in point `t`'s block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v36).slice (win3_3.rect t)).set ↔ _
  rw [View.set_slice_whole, Rect.mem_set_unit]
  exact Iff.rfl

/-- The 10 row blocks tile the result: row `r` is in the block of point `r / 5000`. -/
theorem cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- After the launch the result array is the closing step of the target, sum and count arrays the launch found. -/
theorem final (c : Dev nD) :
    (dat3 (F := Ideal) V c).arrAt 3 cfg3.N = closePoi (V c main_v6) (V c main_v18) (V c main_v21) :=
  (dat3 (F := Ideal) V c).arrAt_eq_of_cover 3 _ (fun t _ => flushed_eq V c t) cover

end Cert.KernelIdeal.ClosePoi

end
-- ==== Proof.Walk.lean ====
/-
  The kernel program's result, walked back to the arguments.

  The program is seven segments: the two weight arrays set side by side, twice; the user projection; the
  point-of-interest projection; the column halves, the gathers, the sums and the counts; the user closing step; the
  point-of-interest closing step; the two results one over the other. At each boundary between segments a buffer holds
  either what the segment before wrote there or what it held one boundary earlier. Read from the last boundary back to the
  launch, the result array is the kernel program's value of the ten argument arrays.
-/
import proofs.«127996_j59854664237663_1_alg».proof.Proof.Gen.KernelIdeal.Frame
import proofs.«127996_j59854664237663_1_alg».proof.Proof.Messages
import proofs.«127996_j59854664237663_1_alg».proof.Proof.ProjUser
import proofs.«127996_j59854664237663_1_alg».proof.Proof.ProjPoi
import proofs.«127996_j59854664237663_1_alg».proof.Proof.CloseUser
import proofs.«127996_j59854664237663_1_alg».proof.Proof.ClosePoi
import Idealize.ShloMosaic.Lib.StableHlo.Run

set_option maxRecDepth 16384

noncomputable section

namespace Cert.KernelIdeal.Walk

open Cert.KernelIdeal Cert.KernelIdeal.Gen Cert.KernelIdeal.Spec Cert.KernelIdeal.Messages
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch: the doubled weight arrays; the features as launched -/

theorem w1_wu (c : Dev nD) : W1 m ρ c (Proc.devRef .tc main_v0)
    = sideBySide (m ((c : Thread nD τ).loc main_arg2)) (m ((c : Thread nD τ).loc main_arg5)) := by
  show StableHlo.after hostOps0 (W0 m ρ c) (Proc.devRef .tc main_v0) = _
  after_results; rfl
theorem w1_wp (c : Dev nD) : W1 m ρ c (Proc.devRef .tc main_v1)
    = sideBySide (m ((c : Thread nD τ).loc main_arg3)) (m ((c : Thread nD τ).loc main_arg4)) := by
  show StableHlo.after hostOps0 (W0 m ρ c) (Proc.devRef .tc main_v1) = _
  after_results; rfl
theorem w1_arg (c : Dev nD) (b : Ref sig .tc) (h0 : main_v0 ≠ b) (h1 : main_v1 ≠ b) :
    W1 m ρ c (Proc.devRef .tc b) = m ((c : Thread nD τ).loc b) := by
  show StableHlo.after hostOps0 (W0 m ρ c) (Proc.devRef .tc b) = _
  rw [StableHlo.after_of_forall_not_mem (b := Proc.devRef .tc b) _ _ (List.forall_iff_forall_mem.mp (by
    simp only [hostOps0, List.Forall, StableHlo.binary_writes, Finset.mem_singleton]
    exact ⟨StableHlo.devRef_ne_of_ne (Ne.symm h0), StableHlo.devRef_ne_of_ne (Ne.symm h1)⟩))]

/-! ## After the two projections -/

theorem w2_yu (c : Dev nD) : W2 m ρ c (Proc.devRef .tc main_v2)
    = projUser (m ((c : Thread nD τ).loc main_arg0)) (sideBySide (m ((c : Thread nD τ).loc main_arg2)) (m ((c : Thread nD τ).loc main_arg5))) := by
  refine (W2_arr m ρ c 2).trans ((ProjUser.final (V1 m ρ) c).trans ?_)
  show projUser (W1 m ρ c (Proc.devRef .tc main_arg0)) (W1 m ρ c (Proc.devRef .tc main_v0)) = _
  rw [w1_wu, w1_arg m ρ c main_arg0 (by decide) (by decide)]

theorem w3_yp (c : Dev nD) : W3 m ρ c (Proc.devRef .tc main_v3)
    = projPoi (m ((c : Thread nD τ).loc main_arg1)) (sideBySide (m ((c : Thread nD τ).loc main_arg3)) (m ((c : Thread nD τ).loc main_arg4))) := by
  refine (W3_arr m ρ c 2).trans ((ProjPoi.final (V2 m ρ) c).trans ?_)
  show projPoi (W2 m ρ c (Proc.devRef .tc main_arg1)) (W2 m ρ c (Proc.devRef .tc main_v1)) = _
  rw [W2_of_ne m ρ c main_arg1 (by decide), W2_of_ne m ρ c main_v1 (by decide), w1_wp, w1_arg m ρ c main_arg1 (by decide) (by decide)]

theorem w3_yu (c : Dev nD) : W3 m ρ c (Proc.devRef .tc main_v2)
    = projUser (m ((c : Thread nD τ).loc main_arg0)) (sideBySide (m ((c : Thread nD τ).loc main_arg2)) (m ((c : Thread nD τ).loc main_arg5))) :=
  (W3_of_ne m ρ c main_v2 (by decide)).trans (w2_yu m ρ c)

/-- An edge array is as launched when the second stretch begins: no segment before it writes one. -/
theorem w3_edge (c : Dev nD) (b : Ref sig .tc) (h0 : main_v0 ≠ b) (h1 : main_v1 ≠ b)
    (hu : ∀ w, Pipeline.arrRef spec0 w ≠ b) (hp : ∀ w, Pipeline.arrRef spec1 w ≠ b) :
    W3 m ρ c (Proc.devRef .tc b) = m ((c : Thread nD τ).loc b) :=
  (W3_of_ne m ρ c b hp).trans ((W2_of_ne m ρ c b hu).trans (w1_arg m ρ c b h0 h1))

/-! ## After the second stretch: halves, sums and counts of what it found -/

section Stretch
variable (X : Valuation τ sig (Elt Ideal))

theorem s_tu : StableHlo.after hostOps2 X (Proc.devRef .tc main_v5) = rightUser (X (Proc.devRef .tc main_v2)) := by
  after_results; rfl
theorem s_tp : StableHlo.after hostOps2 X (Proc.devRef .tc main_v6) = leftPoi (X (Proc.devRef .tc main_v3)) := by
  after_results; rfl
theorem s_sp : StableHlo.after hostOps2 X (Proc.devRef .tc main_v18)
    = sumPoi (leftUser (X (Proc.devRef .tc main_v2))) (X (Proc.devRef .tc main_arg6)) (X (Proc.devRef .tc main_arg7)) := by
  after_results; rfl
theorem s_np : StableHlo.after hostOps2 X (Proc.devRef .tc main_v21) = cntPoi (X (Proc.devRef .tc main_arg7)) := by
  after_results; rfl
theorem s_su : StableHlo.after hostOps2 X (Proc.devRef .tc main_v31)
    = sumUser (rightPoi (X (Proc.devRef .tc main_v3))) (X (Proc.devRef .tc main_arg8)) (X (Proc.devRef .tc main_arg9)) := by
  after_results; rfl
theorem s_nu : StableHlo.after hostOps2 X (Proc.devRef .tc main_v34) = cntUser (X (Proc.devRef .tc main_arg9)) := by
  after_results; rfl

end Stretch

/-! ## After the two closing steps, and the result -/

theorem w5_user (c : Dev nD) : W5 m ρ c (Proc.devRef .tc main_v35)
    = closeUser (W4 m ρ c (Proc.devRef .tc main_v5)) (W4 m ρ c (Proc.devRef .tc main_v31)) (W4 m ρ c (Proc.devRef .tc main_v34)) :=
  (W5_arr m ρ c 3).trans (CloseUser.final (V4 m ρ) c)

theorem w6_poi (c : Dev nD) : W6 m ρ c (Proc.devRef .tc main_v36)
    = closePoi (W4 m ρ c (Proc.devRef .tc main_v6)) (W4 m ρ c (Proc.devRef .tc main_v18)) (W4 m ρ c (Proc.devRef .tc main_v21)) := by
  refine (W6_arr m ρ c 3).trans ((ClosePoi.final (V5 m ρ) c).trans ?_)
  show closePoi (W5 m ρ c (Proc.devRef .tc main_v6)) (W5 m ρ c (Proc.devRef .tc main_v18)) (W5 m ρ c (Proc.devRef .tc main_v21)) = _
  rw [W5_of_ne m ρ c main_v6 (by decide), W5_of_ne m ρ c main_v18 (by decide), W5_of_ne m ρ c main_v21 (by decide)]

theorem w7_result (c : Dev nD) : W7 m ρ c (Proc.devRef .tc main_v37)
    = stacked (W6 m ρ c (Proc.devRef .tc main_v35)) (W6 m ρ c (Proc.devRef .tc main_v36)) := by
  show StableHlo.after hostOps4 (W6 m ρ c) (Proc.devRef .tc main_v37) = _
  generalize W6 m ρ c = X
  after_results; rfl

/-- THE RESULT: at the last boundary the result array holds the kernel program's value of the ten arguments as launched. -/
theorem result_eq (c : Dev nD) : W7 m ρ c (Proc.devRef .tc main_v37)
    = kernelValue (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) := by
  rw [w7_result, W6_of_ne m ρ c main_v35 (by decide), w5_user, w6_poi]
  have e5 : W4 m ρ c (Proc.devRef .tc main_v5) = _ := s_tu (W3 m ρ c)
  have e6 : W4 m ρ c (Proc.devRef .tc main_v6) = _ := s_tp (W3 m ρ c)
  have e18 : W4 m ρ c (Proc.devRef .tc main_v18) = _ := s_sp (W3 m ρ c)
  have e21 : W4 m ρ c (Proc.devRef .tc main_v21) = _ := s_np (W3 m ρ c)
  have e31 : W4 m ρ c (Proc.devRef .tc main_v31) = _ := s_su (W3 m ρ c)
  have e34 : W4 m ρ c (Proc.devRef .tc main_v34) = _ := s_nu (W3 m ρ c)
  rw [e5, e6, e18, e21, e31, e34, w3_yu, w3_yp,
    w3_edge m ρ c main_arg6 (by decide) (by decide) (by decide) (by decide),
    w3_edge m ρ c main_arg7 (by decide) (by decide) (by decide) (by decide),
    w3_edge m ρ c main_arg8 (by decide) (by decide) (by decide) (by decide),
    w3_edge m ρ c main_arg9 (by decide) (by decide) (by decide) (by decide)]
  rfl

end Cert.KernelIdeal.Walk

end
-- ==== Proof.Bridge.lean ====
/-
  The reference program's value is the kernel program's value.

  The reference multiplies each feature array by each of its two weight matrices separately; the kernel program
  multiplies it once by the two matrices set side by side and takes the left and the right 128 columns of the result.
  Column `q` of the doubled array is column `q` of the first matrix for `q` below 128 and column `q` − 128 of the
  second from there on, so each column half of a fused projection is, sum by sum, the separate projection: no law of
  arithmetic is used, only where each factor sits. The gathers, sums and counts are the same host operations on both
  sides and are never opened. The reference's closing operations (the count raised to one, spread along the lanes, the
  quotient, the sum with the target, the positive part) are, element by element, the closing step.
-/
import proofs.«127996_j59854664237663_1_alg».proof.Proof.Gen.ReferenceIdeal.Read
import proofs.«127996_j59854664237663_1_alg».proof.Proof.Messages
import Idealize.ShloMosaic.Lib.Pipeline.Value
import Idealize.ShloMosaic.Lib.ValueIdx
import Idealize.ShloMosaic.PureOps.Ideal.Laws

noncomputable section

namespace Cert.Bridge

open Idealize.ShloMosaic
open Cert.KernelIdeal.Spec Cert.KernelIdeal.Messages

/-! ## Where a factor sits: the doubled weight array and the column halves -/

section Kernel
open Cert.KernelIdeal Cert.KernelIdeal.Facts₀ Cert.KernelIdeal.Facts

/-- In a 128 × 128 weight matrix: feature `k`, column `q`. -/
abbrev matAt (k : Fin 128) (q : Fin 128) : S128x128.Idx := fun a => match a with
  | ⟨0, _⟩ => ⟨k.val, k.isLt⟩
  | ⟨1, _⟩ => ⟨q.val, q.isLt⟩

theorem sideBySide_left (a b : (⟨S128x128, .f32⟩ : BufTy).Contents (Elt Ideal)) (k : Fin 128) (q : Fin 256) (hq : q.val < 128) :
    sideBySide a b (weightAt k q) = a (matAt k ⟨q.val, hq⟩) := by
  unfold sideBySide
  exact concatenate_pair_apply_left (1 : Fin 2) a b concatenates_S128x128_S128x128_S128x256_d1 (weightAt k q) rfl (matAt k ⟨q.val, hq⟩)
    (fun c => by match c with | ⟨0, _⟩ => rfl | ⟨1, _⟩ => rfl)

theorem sideBySide_right (a b : (⟨S128x128, .f32⟩ : BufTy).Contents (Elt Ideal)) (k : Fin 128) (q : Fin 256) (hq : 128 ≤ q.val) :
    sideBySide a b (weightAt k q) = b (matAt k ⟨q.val - 128, by have := q.isLt; omega⟩) := by
  unfold sideBySide
  exact concatenate_pair_apply_right (1 : Fin 2) a b concatenates_S128x128_S128x128_S128x256_d1 (weightAt k q) rfl rfl
    (matAt k ⟨q.val - 128, by have := q.isLt; omega⟩)
    (fun c hc => by match c with | ⟨0, _⟩ => rfl | ⟨1, _⟩ => exact absurd rfl hc)
    (by show (q.val - 128) + 128 = q.val; omega)

theorem leftUser_apply (y : (⟨S100000x256, .f32⟩ : BufTy).Contents (Elt Ideal)) (i : S100000x128.Idx) :
    leftUser y i = y (fun a => match a with
      | ⟨0, _⟩ => ⟨(i 0).val, (i 0).isLt⟩
      | ⟨1, _⟩ => ⟨(i 1).val, by show (i 1).val < 256; have h : (i 1).val < 128 := (i 1).isLt; omega⟩) := by
  unfold leftUser
  exact extractStridedSlice_apply _ y _ i _ (fun a => by
    match a with
    | ⟨0, _⟩ => show (i 0).val = 0 + (i 0).val; omega
    | ⟨1, _⟩ => show (i 1).val = 0 + (i 1).val; omega)

theorem rightUser_apply (y : (⟨S100000x256, .f32⟩ : BufTy).Contents (Elt Ideal)) (i : S100000x128.Idx) :
    rightUser y i = y (fun a => match a with
      | ⟨0, _⟩ => ⟨(i 0).val, (i 0).isLt⟩
      | ⟨1, _⟩ => ⟨(i 1).val + 128, by show (i 1).val + 128 < 256; have h : (i 1).val < 128 := (i 1).isLt; omega⟩) := by
  unfold rightUser
  exact extractStridedSlice_apply _ y _ i _ (fun a => by
    match a with
    | ⟨0, _⟩ => show (i 0).val = 0 + (i 0).val; omega
    | ⟨1, _⟩ => show (i 1).val + 128 = 128 + (i 1).val; omega)

theorem leftPoi_apply (y : (⟨S50000x256, .f32⟩ : BufTy).Contents (Elt Ideal)) (i : S50000x128.Idx) :
    leftPoi y i = y (fun a => match a with
      | ⟨0, _⟩ => ⟨(i 0).val, (i 0).isLt⟩
      | ⟨1, _⟩ => ⟨(i 1).val, by show (i 1).val < 256; have h : (i 1).val < 128 := (i 1).isLt; omega⟩) := by
  unfold leftPoi
  exact extractStridedSlice_apply _ y _ i _ (fun a => by
    match a with
    | ⟨0, _⟩ => show (i 0).val = 0 + (i 0).val; omega
    | ⟨1, _⟩ => show (i 1).val = 0 + (i 1).val; omega)

theorem rightPoi_apply (y : (⟨S50000x256, .f32⟩ : BufTy).Contents (Elt Ideal)) (i : S50000x128.Idx) :
    rightPoi y i = y (fun a => match a with
      | ⟨0, _⟩ => ⟨(i 0).val, (i 0).isLt⟩
      | ⟨1, _⟩ => ⟨(i 1).val + 128, by show (i 1).val + 128 < 256; have h : (i 1).val < 128 := (i 1).isLt; omega⟩) := by
  unfold rightPoi
  exact extractStridedSlice_apply _ y _ i _ (fun a => by
    match a with
    | ⟨0, _⟩ => show (i 0).val = 0 + (i 0).val; omega
    | ⟨1, _⟩ => show (i 1).val + 128 = 128 + (i 1).val; omega)

/-! ## A column half of a fused projection is the separate projection -/

theorem left_projUser (x : (⟨S100000x128, .f32⟩ : BufTy).Contents (Elt Ideal)) (a b : (⟨S128x128, .f32⟩ : BufTy).Contents (Elt Ideal)) (i : S100000x128.Idx) :
    leftUser (projUser x (sideBySide a b)) i
      = ∑ k : Fin 128, x (featAt (n := 100000) ⟨(i 0).val, (i 0).isLt⟩ k) * a (matAt k ⟨(i 1).val, (i 1).isLt⟩) := by
  have h1 : (i 1).val < 128 := (i 1).isLt
  rw [leftUser_apply]
  unfold projUser
  refine Finset.sum_congr rfl fun k _ => ?_
  rw [sideBySide_left a b k _ (by show (i 1).val < 128; exact h1)]

theorem right_projUser (x : (⟨S100000x128, .f32⟩ : BufTy).Contents (Elt Ideal)) (a b : (⟨S128x128, .f32⟩ : BufTy).Contents (Elt Ideal)) (i : S100000x128.Idx) :
    rightUser (projUser x (sideBySide a b)) i
      = ∑ k : Fin 128, x (featAt (n := 100000) ⟨(i 0).val, (i 0).isLt⟩ k) * b (matAt k ⟨(i 1).val, (i 1).isLt⟩) := by
  have h1 : (i 1).val < 128 := (i 1).isLt
  rw [rightUser_apply]
  unfold projUser
  refine Finset.sum_congr rfl fun k _ => ?_
  rw [sideBySide_right a b k _ (by show 128 ≤ (i 1).val + 128; omega)]
  refine congrArg (fun z => _ * b z) (funext fun c => Fin.ext ?_)
  match c with
  | ⟨0, _⟩ => rfl
  | ⟨1, _⟩ => show (i 1).val + 128 - 128 = (i 1).val; omega

theorem left_projPoi (x : (⟨S50000x128, .f32⟩ : BufTy).Contents (Elt Ideal)) (a b : (⟨S128x128, .f32⟩ : BufTy).Contents (Elt Ideal)) (i : S50000x128.Idx) :
    leftPoi (projPoi x (sideBySide a b)) i
      = ∑ k : Fin 128, x (featAt (n := 50000) ⟨(i 0).val, (i 0).isLt⟩ k) * a (matAt k ⟨(i 1).val, (i 1).isLt⟩) := by
  have h1 : (i 1).val < 128 := (i 1).isLt
  rw [leftPoi_apply]
  unfold projPoi
  refine Finset.sum_congr rfl fun k _ => ?_
  rw [sideBySide_left a b k _ (by show (i 1).val < 128; exact h1)]

theorem right_projPoi (x : (⟨S50000x128, .f32⟩ : BufTy).Contents (Elt Ideal)) (a b : (⟨S128x128, .f32⟩ : BufTy).Contents (Elt Ideal)) (i : S50000x128.Idx) :
    rightPoi (projPoi x (sideBySide a b)) i
      = ∑ k : Fin 128, x (featAt (n := 50000) ⟨(i 0).val, (i 0).isLt⟩ k) * b (matAt k ⟨(i 1).val, (i 1).isLt⟩) := by
  have h1 : (i 1).val < 128 := (i 1).isLt
  rw [rightPoi_apply]
  unfold projPoi
  refine Finset.sum_congr rfl fun k _ => ?_
  rw [sideBySide_right a b k _ (by show 128 ≤ (i 1).val + 128; omega)]
  refine congrArg (fun z => _ * b z) (funext fun c => Fin.ext ?_)
  match c with
  | ⟨0, _⟩ => rfl
  | ⟨1, _⟩ => show (i 1).val + 128 - 128 = (i 1).val; omega

end Kernel

/-! ## The reference's stages -/

section Reference
open Cert.ReferenceIdeal.Read

variable (x0 : (⟨Cert.KernelIdeal.S100000x128, .f32⟩ : BufTy).Contents (Elt Ideal)) (x1 : (⟨Cert.KernelIdeal.S50000x128, .f32⟩ : BufTy).Contents (Elt Ideal))
  (x2 x3 x4 x5 : (⟨Cert.KernelIdeal.S128x128, .f32⟩ : BufTy).Contents (Elt Ideal)) (x6 x7 x8 x9 : (⟨Cert.KernelIdeal.S1000000, .i32⟩ : BufTy).Contents (Elt Ideal))

/-- The reference's user source projection is the left half of the fused user projection. -/
theorem src_user : val_main_v0 (F := Ideal) x0 x2 = leftUser (projUser x0 (sideBySide x2 x5)) := by
  funext i
  rw [val_main_v0_apply, left_projUser]
  refine Finset.sum_congr rfl fun k _ => ?_
  have el : lidx_main_v0 i k = featAt (n := 100000) ⟨(i 0).val, (i 0).isLt⟩ k :=
    funext fun a => Fin.ext (by match a with | ⟨0, _⟩ => rfl | ⟨1, _⟩ => rfl)
  have er : ridx_main_v0 i k = matAt k ⟨(i 1).val, (i 1).isLt⟩ :=
    funext fun a => Fin.ext (by match a with | ⟨0, _⟩ => rfl | ⟨1, _⟩ => rfl)
  rw [el, er]
/-- The reference's user target projection is the right half of the fused user projection. -/
theorem tgt_user : val_main_v22 (F := Ideal) x0 x5 = rightUser (projUser x0 (sideBySide x2 x5)) := by
  funext i
  rw [val_main_v22_apply, right_projUser]
  refine Finset.sum_congr rfl fun k _ => ?_
  have el : lidx_main_v22 i k = featAt (n := 100000) ⟨(i 0).val, (i 0).isLt⟩ k :=
    funext fun a => Fin.ext (by match a with | ⟨0, _⟩ => rfl | ⟨1, _⟩ => rfl)
  have er : ridx_main_v22 i k = matAt k ⟨(i 1).val, (i 1).isLt⟩ :=
    funext fun a => Fin.ext (by match a with | ⟨0, _⟩ => rfl | ⟨1, _⟩ => rfl)
  rw [el, er]
/-- The reference's point-of-interest target projection is the left half of the fused point-of-interest projection. -/
theorem tgt_poi : val_main_v1 (F := Ideal) x1 x3 = leftPoi (projPoi x1 (sideBySide x3 x4)) := by
  funext i
  rw [val_main_v1_apply, left_projPoi]
  refine Finset.sum_congr rfl fun k _ => ?_
  have el : lidx_main_v1 i k = featAt (n := 50000) ⟨(i 0).val, (i 0).isLt⟩ k :=
    funext fun a => Fin.ext (by match a with | ⟨0, _⟩ => rfl | ⟨1, _⟩ => rfl)
  have er : ridx_main_v1 i k = matAt k ⟨(i 1).val, (i 1).isLt⟩ :=
    funext fun a => Fin.ext (by match a with | ⟨0, _⟩ => rfl | ⟨1, _⟩ => rfl)
  rw [el, er]
/-- The reference's point-of-interest source projection is the right half of the fused point-of-interest projection. -/
theorem src_poi : val_main_v21 (F := Ideal) x1 x4 = rightPoi (projPoi x1 (sideBySide x3 x4)) := by
  funext i
  rw [val_main_v21_apply, right_projPoi]
  refine Finset.sum_congr rfl fun k _ => ?_
  have el : lidx_main_v21 i k = featAt (n := 50000) ⟨(i 0).val, (i 0).isLt⟩ k :=
    funext fun a => Fin.ext (by match a with | ⟨0, _⟩ => rfl | ⟨1, _⟩ => rfl)
  have er : ridx_main_v21 i k = matAt k ⟨(i 1).val, (i 1).isLt⟩ :=
    funext fun a => Fin.ext (by match a with | ⟨0, _⟩ => rfl | ⟨1, _⟩ => rfl)
  rw [el, er]

/-- The reference's sums and counts are the shared host operations of its source projections and the edge arrays. -/
theorem sum_user : val_main_v32 (F := Ideal) x1 x4 x8 x9 = sumUser (val_main_v21 (F := Ideal) x1 x4) x8 x9 := rfl
theorem cnt_user : val_main_v36 (F := Ideal) x9 = cntUser x9 := rfl
theorem sum_poi : val_main_v11 (F := Ideal) x0 x2 x6 x7 = sumPoi (val_main_v0 (F := Ideal) x0 x2) x6 x7 := rfl
theorem cnt_poi : val_main_v15 (F := Ideal) x7 = cntPoi x7 := rfl

/-- The reference's user rows: the closing step of the right half of the fused user projection, the user sums and counts. -/
theorem rows_user : val_main_v42 (F := Ideal) x0 x1 x4 x5 x8 x9
    = closeUser (rightUser (projUser x0 (sideBySide x2 x5))) (sumUser (rightPoi (projPoi x1 (sideBySide x3 x4))) x8 x9) (cntUser x9) := by
  rw [← tgt_user x0 x2 x5, ← src_poi x1 x3 x4, ← sum_user x1 x4 x8 x9, ← cnt_user x9]
  funext i
  have ec : idx_main_v39 i = countAt (n := 100000) ⟨(i 0).val, (i 0).isLt⟩ :=
    funext fun a => Fin.ext (by match a with | ⟨0, _⟩ => rfl | ⟨1, _⟩ => rfl)
  rw [val_main_v42_apply, val_main_v41_apply, val_main_v40_apply, val_main_v39_apply, val_main_v38_apply,
    val_main_call0_v0_apply, val_main_call0_cst_apply, val_main_v37_apply, val_main_cst_9_apply, ec]
  unfold closeUser closeElt
  simp only [Ideal.maximumf_def, Ideal.addf_def, Ideal.hostDivf_def, Ideal.ofBits_def]

/-- The reference's point-of-interest rows: the closing step of the left half of the fused point-of-interest projection, the
    point-of-interest sums and counts. -/
theorem rows_poi : val_main_v43 (F := Ideal) x0 x1 x2 x3 x6 x7
    = closePoi (leftPoi (projPoi x1 (sideBySide x3 x4))) (sumPoi (leftUser (projUser x0 (sideBySide x2 x5))) x6 x7) (cntPoi x7) := by
  rw [← tgt_poi x1 x3 x4, ← src_user x0 x2 x5, ← sum_poi x0 x2 x6 x7, ← cnt_poi x7]
  funext i
  have ec : idx_main_v18 i = countAt (n := 50000) ⟨(i 0).val, (i 0).isLt⟩ :=
    funext fun a => Fin.ext (by match a with | ⟨0, _⟩ => rfl | ⟨1, _⟩ => rfl)
  rw [val_main_v43_apply, val_main_v20_apply, val_main_v19_apply, val_main_v18_apply, val_main_v17_apply,
    val_main_call1_v0_apply, val_main_call1_cst_apply, val_main_v16_apply, val_main_cst_3_apply, ec]
  unfold closePoi closeElt
  simp only [Ideal.maximumf_def, Ideal.addf_def, Ideal.hostDivf_def, Ideal.ofBits_def]

/-- THE BRIDGE: the reference program's value of the ten arguments is the kernel program's. -/
theorem value_eq : val_main_v44 (F := Ideal) x0 x1 x2 x3 x4 x5 x6 x7 x8 x9 = kernelValue x0 x1 x2 x3 x4 x5 x6 x7 x8 x9 := by
  unfold val_main_v44 kernelValue stacked
  rw [rows_user x0 x1 x2 x3 x4 x5 x8 x9, rows_poi x0 x1 x2 x3 x4 x5 x6 x7]

end Reference

end Cert.Bridge

end
-- ==== Proof.lean ====
/-
  A two-relation message-passing layer over user nodes and point-of-interest nodes, as four TensorCore launches
  around host gathers and sums, against its plain reference: equal results over the extended reals.

  Both programs project the 100000 user rows and the 50000 point-of-interest rows (128 features each) by two 128 × 128
  weight matrices each; send along each of a million user → point-of-interest edges the projected source row and add
  the rows arriving at a node; divide each node's sum by the number of arriving edges, that number raised to one where
  none arrives; add the node's own projected target row; keep the positive part; and put the user rows over the
  point-of-interest rows.

  The kernel program does each node type's two projections as ONE product with the two weight matrices set side by
  side, in launches of 5000 rows, and takes the left and right column halves; it does the division, the sum with the
  target and the positive part in two more launches of 5000 rows; the gathers and edge sums between are host
  operations, the same ones the reference applies.

  * Each launch's result array is one whole-array function of the arrays it finds: its row blocks tile the result and
    each block is that function read at the block's place (the fused projection: the sum over the features of row
    times column; the closing step: target plus sum over the raised count, positive part).
  * The result array at the program's end is walked back through the seven segments of the program to the ten
    arguments.
  * A column half of the product with the doubled weight array IS the product with that half's matrix, term by
    term of the sum, because column `q` of the doubled array is a column of one of the two matrices: no law of
    arithmetic is needed, so the finiteness of the inputs is never used, and a narrowing of the operands to a shorter
    float format is the identity over the extended reals.
  * The gathers, the edge sums and the edge counts are carried as the same functions on both sides.

  The three frames are the generated ones (the reference's is its generated run with the result dropped); the
  idealization changed nothing in the kernel program, so what it preserves is trivially so.
-/
import proofs.«127996_j59854664237663_1_alg».proof.Defs
import proofs.«127996_j59854664237663_1_alg».proof.Proof.Gen.Kernel
import proofs.«127996_j59854664237663_1_alg».proof.Proof.Gen.Kernel.Frame
import proofs.«127996_j59854664237663_1_alg».proof.Proof.Gen.KernelIdeal
import proofs.«127996_j59854664237663_1_alg».proof.Proof.Gen.KernelIdeal.Frame
import proofs.«127996_j59854664237663_1_alg».proof.Proof.Gen.ReferenceIdeal
import proofs.«127996_j59854664237663_1_alg».proof.Proof.Gen.ReferenceIdeal.Run
import proofs.«127996_j59854664237663_1_alg».proof.Proof.Gen.ReferenceIdeal.Read
import proofs.«127996_j59854664237663_1_alg».proof.Proof.Gen.Pre_finite_inputs
import proofs.«127996_j59854664237663_1_alg».proof.Proof.KernelRun
import proofs.«127996_j59854664237663_1_alg».proof.Proof.Walk
import proofs.«127996_j59854664237663_1_alg».proof.Proof.Bridge
import Idealize.ShloMosaic.Adequacy
import Idealize.ShloMosaic.Init

noncomputable section

namespace Cert.Proof

open Idealize.ShloMosaic Idealize.ShloMosaic.TcCoe Idealize.SL.Sem

/-- Every fair execution of the kernel program ends, faultless, its arguments unchanged. -/
theorem frame_kernel : Cert.frame_Kernel := fun m ρ _ => Cert.Kernel.Gen.frame m ρ

/-- The same of the idealized kernel program. -/
theorem frame_kernelIdeal : Cert.frame_KernelIdeal := fun m ρ _ => Cert.KernelIdeal.Gen.frame m ρ

/-- The same of the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization recorded no rewrite of the kernel program. -/
theorem preserves : Cert.preserves_Kernel_KernelIdeal := trivial

/-- From memories that agree on the ten arguments both idealized programs end with the result array at the kernel
    program's value of the arguments: the kernel program by its run and the walk back to the arguments, the reference
    by its run and the bridge. -/
theorem algebraic : Cert.algebraic_KernelIdeal_ReferenceIdeal := by
  intro m ρ m' ρ' _ hagree
  refine ⟨fun c => Cert.KernelIdeal.Messages.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Walk.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [h0, h1, h2, h3, h4, h5, h6, h7, h8, h9]
    exact (Cert.ReferenceIdeal.Read.val_main_v44_eq _ _ _ _ _ _ _ _ _ _).trans (Cert.Bridge.value_eq _ _ _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
